-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x120000 : Shape := ⟨2, ![64, 120000]⟩
abbrev S2x1920000 : Shape := ⟨2, ![2, 1920000]⟩
abbrev S1920000 : Shape := ⟨1, ![1920000]⟩
abbrev S_ : Shape := ⟨0, ![]⟩

class Facts : Prop where
  bcast_S_S64x120000 : S_.BroadcastsInDim S64x120000 (![] : Fin 0 → Fin S64x120000.rank)
  reducesTo_S64x120000_S_d0_1 : S64x120000.ReducesTo [0, 1] S_
  h_S_ : 0 < S_.numel
  bcast_S_S1920000 : S_.BroadcastsInDim S1920000 (![] : Fin 0 → Fin S1920000.rank)
  reducesTo_S1920000_S_d0 : S1920000.ReducesTo [0] S_

variable [Facts]

def fn {F : FTy → Type} [FloatOps F] (main_arg0 : FVec F S64x120000 .f32) (main_arg1 : IVec S2x1920000 32) (main_arg2 : FVec F S1920000 .f32) : IVec S_ 1 :=
  let main_v0 : FVec F S64x120000 .f32 := Host.absf main_arg0
  let main_cst : FVec F S_ .f32 := constant S_ .f32 0x7F800000#32
  let main_v1 : FVec F S64x120000 .f32 := broadcastInDim S64x120000 ![] bcast_S_S64x120000 main_cst
  let main_v2 : IVec S64x120000 1 := cmpf .olt main_v0 main_v1
  let main_c : IVec S_ 1 := constantI S_ 1 1#1
  let main_v3 : IVec S_ 1 := (fun x v => Host.reduce IntOp.andi x v reducesTo_S64x120000_S_d0_1 h_S_) main_v2 main_c
  let main_v4 : FVec F S1920000 .f32 := Host.absf main_arg2
  let main_cst_0 : FVec F S_ .f32 := constant S_ .f32 0x7F800000#32
  let main_v5 : FVec F S1920000 .f32 := broadcastInDim S1920000 ![] bcast_S_S1920000 main_cst_0
  let main_v6 : IVec S1920000 1 := cmpf .olt main_v4 main_v5
  let main_c_1 : IVec S_ 1 := constantI S_ 1 1#1
  let main_v7 : IVec S_ 1 := (fun x v => Host.reduce IntOp.andi x v reducesTo_S1920000_S_d0 h_S_) main_v6 main_c_1
  let main_v8 : IVec S_ 1 := andi main_v3 main_v7
  main_v8
-- ==== Kernel.lean ====
abbrev S64x120000 : Shape := ⟨2, ![64, 120000]⟩
abbrev S2x1920000 : Shape := ⟨2, ![2, 1920000]⟩
abbrev S1920000 : Shape := ⟨1, ![1920000]⟩
abbrev S1x1920000 : Shape := ⟨2, ![1, 1920000]⟩
abbrev S120000x64 : Shape := ⟨2, ![120000, 64]⟩
abbrev S1920000x1 : Shape := ⟨2, ![1920000, 1]⟩
abbrev S_ : Shape := ⟨0, ![]⟩
abbrev S1920000x64 : Shape := ⟨2, ![1920000, 64]⟩
abbrev S1024 : Shape := ⟨1, ![1024]⟩
abbrev S1921024 : Shape := ⟨1, ![1921024]⟩
abbrev S1024x64 : Shape := ⟨2, ![1024, 64]⟩
abbrev S1921024x64 : Shape := ⟨2, ![1921024, 64]⟩
abbrev S1x1921024 : Shape := ⟨2, ![1, 1921024]⟩
abbrev S122880x64 : Shape := ⟨2, ![122880, 64]⟩
abbrev S1x2048 : Shape := ⟨2, ![1, 2048]⟩
abbrev S2048x64 : Shape := ⟨2, ![2048, 64]⟩
abbrev S4096x64 : Shape := ⟨2, ![4096, 64]⟩
abbrev S4096x1 : Shape := ⟨2, ![4096, 1]⟩
abbrev S4096x2048 : Shape := ⟨2, ![4096, 2048]⟩

abbrev nBuf : Space → Nat
  | .hbm => 31
  | .vmem => 7
  | .smem => 0
  | _ => 0

abbrev bufTy : (tb : Table) → Fin (tcTables nBuf tb) → BufTy
  | .hbm, ⟨0, _⟩ => ⟨S64x120000, .f32⟩
  | .hbm, ⟨1, _⟩ => ⟨S2x1920000, .i32⟩
  | .hbm, ⟨2, _⟩ => ⟨S1920000, .f32⟩
  | .hbm, ⟨3, _⟩ => ⟨S1x1920000, .i32⟩
  | .hbm, ⟨4, _⟩ => ⟨S1920000, .i32⟩
  | .hbm, ⟨5, _⟩ => ⟨S1x1920000, .i32⟩
  | .hbm, ⟨6, _⟩ => ⟨S1920000, .i32⟩
  | .hbm, ⟨7, _⟩ => ⟨S120000x64, .f32⟩
  | .hbm, ⟨8, _⟩ => ⟨S1920000x1, .f32⟩
  | .hbm, ⟨9, _⟩ => ⟨S_, .i32⟩
  | .hbm, ⟨10, _⟩ => ⟨S1920000, .i32⟩
  | .hbm, ⟨11, _⟩ => ⟨S1920000, .i1⟩
  | .hbm, ⟨12, _⟩ => ⟨S_, .i32⟩
  | .hbm, ⟨13, _⟩ => ⟨S1920000, .i32⟩
  | .hbm, ⟨14, _⟩ => ⟨S1920000, .i32⟩
  | .hbm, ⟨15, _⟩ => ⟨S1920000, .i32⟩
  | .hbm, ⟨16, _⟩ => ⟨S1920000x1, .i32⟩
  | .hbm, ⟨17, _⟩ => ⟨S1920000x64, .f32⟩
  | .hbm, ⟨18, _⟩ => ⟨S1920000x64, .f32⟩
  | .hbm, ⟨19, _⟩ => ⟨S1920000x64, .f32⟩
  | .hbm, ⟨20, _⟩ => ⟨S1920000x64, .bf16⟩
  | .hbm, ⟨21, _⟩ => ⟨S_, .i32⟩
  | .hbm, ⟨22, _⟩ => ⟨S1024, .i32⟩
  | .hbm, ⟨23, _⟩ => ⟨S1921024, .i32⟩
  | .hbm, ⟨24, _⟩ => ⟨S_, .bf16⟩
  | .hbm, ⟨25, _⟩ => ⟨S1024x64, .bf16⟩
  | .hbm, ⟨26, _⟩ => ⟨S1921024x64, .bf16⟩
  | .hbm, ⟨27, _⟩ => ⟨S1x1921024, .i32⟩
  | .hbm, ⟨28, _⟩ => ⟨S122880x64, .f32⟩
  | .hbm, ⟨29, _⟩ => ⟨S120000x64, .f32⟩
  | .hbm, ⟨30, _⟩ => ⟨S64x120000, .f32⟩
  | .local _ .vmem, ⟨0, _⟩ => ⟨S1x2048, .i32⟩
  | .local _ .vmem, ⟨1, _⟩ => ⟨S1x2048, .i32⟩
  | .local _ .vmem, ⟨2, _⟩ => ⟨S2048x64, .bf16⟩
  | .local _ .vmem, ⟨3, _⟩ => ⟨S2048x64, .bf16⟩
  | .local _ .vmem, ⟨4, _⟩ => ⟨S4096x64, .f32⟩
  | .local _ .vmem, ⟨5, _⟩ => ⟨S4096x64, .f32⟩
  | .local _ .vmem, ⟨6, _⟩ => ⟨S4096x64, .f32⟩
  | _, _ => ⟨S64x120000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c_1 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![30, 938], ![false, false]⟩

def k0_cond2 (i : grid0.Coords) : BitVec 1 :=
  let arg1 : BitVec 32 := BitVec.ofNat 32 (i 1).val
  let c937_i32 : BitVec 32 := 937#32
  let v23 : BitVec 1 := Scalar.cmpi .eq arg1 c937_i32
  let v24 : BitVec 32 := Scalar.extui v23
  let c0_i32_8 : BitVec 32 := 0#32
  let v25 : BitVec 1 := Scalar.cmpi .ne v24 c0_i32_8
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  slices_S2x1920000_S1x1920000_0_0 : S2x1920000.Slices ![0, 0] S1x1920000
  shapeCasts_S1x1920000_S1920000 : S1x1920000.ShapeCasts S1920000
  slices_S2x1920000_S1x1920000_1_0 : S2x1920000.Slices ![1, 0] S1x1920000
  transposes_S64x120000_S120000x64_1_0 : S64x120000.Transposes [1, 0] S120000x64
  bcast_S1920000_S1920000x1_0 : S1920000.BroadcastsInDim S1920000x1 (![0] : Fin 1 → Fin S1920000x1.rank)
  bcast_S_S1920000 : S_.BroadcastsInDim S1920000 (![] : Fin 0 → Fin S1920000.rank)
  bcast_S1920000x1_S1920000x64_0_1 : S1920000x1.BroadcastsInDim S1920000x64 (![0, 1] : Fin 2 → Fin S1920000x64.rank)
  bitsLt_bf16_f32 : FTy.bits .bf16 < FTy.bits .f32
  bcast_S_S1024 : S_.BroadcastsInDim S1024 (![] : Fin 0 → Fin S1024.rank)
  concatenates_S1920000_S1024_S1921024_d0 : Shape.Concatenates [S1920000, S1024] S1921024 0
  bcast_S_S1024x64 : S_.BroadcastsInDim S1024x64 (![] : Fin 0 → Fin S1024x64.rank)
  concatenates_S1920000x64_S1024x64_S1921024x64_d0 : Shape.Concatenates [S1920000x64, S1024x64] S1921024x64 0
  shapeCasts_S1921024_S1x1921024 : S1921024.ShapeCasts S1x1921024
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  iota_S4096x1_d0_w32 : S4096x1.Iotas .tc 32 [0]
  broadcasts_S1x2048_S4096x2048 : S1x2048.Broadcasts S4096x2048
  broadcasts_S4096x1_S4096x2048 : S4096x1.Broadcasts S4096x2048
  natLt_1_32 : 1 < 32
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  slices_S122880x64_S120000x64_0_0 : S122880x64.Slices ![0, 0] S120000x64
  transposes_S120000x64_S64x120000_1_0 : S120000x64.Transposes [1, 0] S64x120000
  gather_S120000x64_S1920000x1_S1920000x64_1_0_n_n_0_1_164_wf : GatherDims.WF S120000x64 S1920000x1 S1920000x64 [1] [0] [] [0] [] 1 ![1, 64]
  dot_S4096x2048_S2048x64_S4096x64_1_0_0_1_n_n_wf : DotDims.WF S4096x2048 S2048x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048.size a ≤ S1x1921024.size a
  hwx0_0 : ∀ i : grid0.Coords, EltTy.bits .i32 = 32 ∨ (Rect.block (s := S1x1921024) S1x2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S1921024x64.size a
  hwx0_1 : ∀ i : grid0.Coords, EltTy.bits .bf16 = 32 ∨ (Rect.block (s := S1921024x64) S2048x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S122880x64.size a
  hwx0_2 : ∀ i : grid0.Coords, EltTy.bits .f32 = 32 ∨ (Rect.block (s := S122880x64) S4096x64.size (cc0_transform_2 i) (hinb0_2 i)).WholeWords (EltTy.packing .f32)

variable [Facts₀]

def gather_S120000x64_S1920000x1_S1920000x64_1_0_n_n_0_1_164 : GatherDims S120000x64 S1920000x1 S1920000x64 where
  offsetDims := [1]
  collapsedSliceDims := [0]
  operandBatchingDims := []
  startIndicesBatchingDims := []
  startIndexMap := [0]
  indexVectorDim := 1
  sliceSizes := ![1, 64]
  wf := gather_S120000x64_S1920000x1_S1920000x64_1_0_n_n_0_1_164_wf
def dot_S4096x2048_S2048x64_S4096x64_1_0_0_1_n_n : DotDims S4096x2048 S2048x64 S4096x64 where
  lhsContracting := [1]
  rhsContracting := [0]
  lhsNonContracting := [0]
  rhsNonContracting := [1]
  lhsBatch := []
  rhsBatch := []
  wf := dot_S4096x2048_S2048x64_S4096x64_1_0_0_1_n_n_wf

abbrev win0_0 : Pipeline.Window sig grid0 :=
  Pipeline.Window.ofSpec (Memref.whole main_v20) S1x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S4096x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x120000 : Shape := ⟨2, ![64, 120000]⟩
abbrev S2x1920000 : Shape := ⟨2, ![2, 1920000]⟩
abbrev S1920000 : Shape := ⟨1, ![1920000]⟩
abbrev S1x1920000 : Shape := ⟨2, ![1, 1920000]⟩
abbrev S120000x64 : Shape := ⟨2, ![120000, 64]⟩
abbrev S1920000x1 : Shape := ⟨2, ![1920000, 1]⟩
abbrev S_ : Shape := ⟨0, ![]⟩
abbrev S1920000x64 : Shape := ⟨2, ![1920000, 64]⟩

abbrev nBuf : Space → Nat
  | .hbm => 25
  | .vmem => 0
  | .smem => 0
  | _ => 0

abbrev bufTy : (tb : Table) → Fin (tcTables nBuf tb) → BufTy
  | .hbm, ⟨0, _⟩ => ⟨S64x120000, .f32⟩
  | .hbm, ⟨1, _⟩ => ⟨S2x1920000, .i32⟩
  | .hbm, ⟨2, _⟩ => ⟨S1920000, .f32⟩
  | .hbm, ⟨3, _⟩ => ⟨S1x1920000, .i32⟩
  | .hbm, ⟨4, _⟩ => ⟨S1920000, .i32⟩
  | .hbm, ⟨5, _⟩ => ⟨S1x1920000, .i32⟩
  | .hbm, ⟨6, _⟩ => ⟨S1920000, .i32⟩
  | .hbm, ⟨7, _⟩ => ⟨S120000x64, .f32⟩
  | .hbm, ⟨8, _⟩ => ⟨S1920000x1, .f32⟩
  | .hbm, ⟨9, _⟩ => ⟨S_, .i32⟩
  | .hbm, ⟨10, _⟩ => ⟨S1920000, .i32⟩
  | .hbm, ⟨11, _⟩ => ⟨S1920000, .i1⟩
  | .hbm, ⟨12, _⟩ => ⟨S_, .i32⟩
  | .hbm, ⟨13, _⟩ => ⟨S1920000, .i32⟩
  | .hbm, ⟨14, _⟩ => ⟨S1920000, .i32⟩
  | .hbm, ⟨15, _⟩ => ⟨S1920000, .i32⟩
  | .hbm, ⟨16, _⟩ => ⟨S1920000x1, .i32⟩
  | .hbm, ⟨17, _⟩ => ⟨S1920000x64, .f32⟩
  | .hbm, ⟨18, _⟩ => ⟨S1920000x64, .f32⟩
  | .hbm, ⟨19, _⟩ => ⟨S1920000x64, .f32⟩
  | .hbm, ⟨20, _⟩ => ⟨S_, .f32⟩
  | .hbm, ⟨21, _⟩ => ⟨S120000x64, .f32⟩
  | .hbm, ⟨22, _⟩ => ⟨S1920000x1, .i32⟩
  | .hbm, ⟨23, _⟩ => ⟨S120000x64, .f32⟩
  | .hbm, ⟨24, _⟩ => ⟨S64x120000, .f32⟩
  | _, _ => ⟨S64x120000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]

class Facts₀ : Prop where
  slices_S2x1920000_S1x1920000_0_0 : S2x1920000.Slices ![0, 0] S1x1920000
  shapeCasts_S1x1920000_S1920000 : S1x1920000.ShapeCasts S1920000
  slices_S2x1920000_S1x1920000_1_0 : S2x1920000.Slices ![1, 0] S1x1920000
  transposes_S64x120000_S120000x64_1_0 : S64x120000.Transposes [1, 0] S120000x64
  bcast_S1920000_S1920000x1_0 : S1920000.BroadcastsInDim S1920000x1 (![0] : Fin 1 → Fin S1920000x1.rank)
  bcast_S_S1920000 : S_.BroadcastsInDim S1920000 (![] : Fin 0 → Fin S1920000.rank)
  bcast_S1920000x1_S1920000x64_0_1 : S1920000x1.BroadcastsInDim S1920000x64 (![0, 1] : Fin 2 → Fin S1920000x64.rank)
  bcast_S_S120000x64 : S_.BroadcastsInDim S120000x64 (![] : Fin 0 → Fin S120000x64.rank)
  transposes_S120000x64_S64x120000_1_0 : S120000x64.Transposes [1, 0] S64x120000
  gather_S120000x64_S1920000x1_S1920000x64_1_0_n_n_0_1_164_wf : GatherDims.WF S120000x64 S1920000x1 S1920000x64 [1] [0] [] [0] [] 1 ![1, 64]
  scatter_S120000x64_S1920000x1_S1920000x64_1_0_0_1_wf : ScatterDims.WF S120000x64 S1920000x1 S1920000x64 [1] [0] [0] 1

variable [Facts₀]

def gather_S120000x64_S1920000x1_S1920000x64_1_0_n_n_0_1_164 : GatherDims S120000x64 S1920000x1 S1920000x64 where
  offsetDims := [1]
  collapsedSliceDims := [0]
  operandBatchingDims := []
  startIndicesBatchingDims := []
  startIndexMap := [0]
  indexVectorDim := 1
  sliceSizes := ![1, 64]
  wf := gather_S120000x64_S1920000x1_S1920000x64_1_0_n_n_0_1_164_wf
def scatter_S120000x64_S1920000x1_S1920000x64_1_0_0_1 : ScatterDims S120000x64 S1920000x1 S1920000x64 where
  updateWindowDims := [1]
  insertedWindowDims := [0]
  scatterDimsToOperandDims := [0]
  indexVectorDim := 1
  wf := scatter_S120000x64_S1920000x1_S1920000x64_1_0_0_1_wf

class Facts : Prop extends Facts₀ where

variable [Facts]
-- ==== Proof.Pieces.lean ====
/-
  What one run of the kernel body leaves behind, case by case.

  The body keeps a 4096 × 64 accumulator. At the first edge tile of a row block it sets the accumulator to zero,
  reads it back, and stores the zero block plus the tile's contribution; at every other tile it stores what the
  accumulator held plus the tile's contribution; at the last tile it also copies the new accumulator into the output
  block. Each store covers its whole buffer, so what a buffer holds afterwards is the last value stored in it.
-/
import proofs.«406231_j32040456029042_1_alg».proof.Proof.Gen.KernelIdeal.Frame
import Idealize.ShloMosaic.Lib.Pipeline.Value
import Idealize.ShloMosaic.Lib.Tactic

set_option maxRecDepth 16384

noncomputable section

namespace Cert.KernelIdeal.Spmm

open Idealize.ShloMosaic Idealize.ShloMosaic.TcCoe Idealize.ShloMosaic.Tactic Idealize.SL.Sem
open Cert.KernelIdeal Cert.KernelIdeal.Gen

variable {F : FTy → Type} [FloatOps F]

/-- The zero offsets of a whole-buffer access, as a constant function. -/
theorem hz : (![0, 0] : Fin 2 → Nat) = fun _ => 0 := funext fun a => by fin_cases a <;> rfl

/-- First tile of a row block: the accumulator ends at the tile's contribution added to the zero block. -/
theorem sout_A (c : Dev nD) (i : grid0.Coords) (arg2 : Memref sig .tc .vmem S1x2048 .i32) (harg2 : arg2.IsWhole)
    (arg3 : Memref sig .tc .vmem S2048x64 .bf16) (harg3 : arg3.IsWhole) (arg4 : Memref sig .tc .vmem S4096x64 .f32) (harg4 : arg4.IsWhole)
    (arg5 : Memref sig .tc .vmem S4096x64 .f32) (harg5 : arg5.IsWhole)
    (hc0 : cond0_0 i) (hc1 : ¬cond0_1 i) (x0 : Vec F S1x2048 .i32) (x1 : Vec F S2048x64 .bf16) :
    sout0_A_0 c i arg2 harg2 arg3 harg3 arg4 harg4 arg5 harg5 hc0 hc1 x0 x1 = k0_pay2 i x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S4096x64) hz]
  simp only [View.readAt_eq_ld, harg2.read_unread, harg3.read_unread, View.ld_unit_zero (S := S1x2048) hz,
    View.ld_unit_zero (S := S2048x64) hz, View.readCov_unit_zero (S := S4096x64) _ hz]

/-- A middle tile: the accumulator ends at what it held plus the tile's contribution. -/
theorem sout_B (c : Dev nD) (i : grid0.Coords) (arg2 : Memref sig .tc .vmem S1x2048 .i32) (harg2 : arg2.IsWhole)
    (arg3 : Memref sig .tc .vmem S2048x64 .bf16) (harg3 : arg3.IsWhole) (arg4 : Memref sig .tc .vmem S4096x64 .f32) (harg4 : arg4.IsWhole)
    (arg5 : Memref sig .tc .vmem S4096x64 .f32) (harg5 : arg5.IsWhole)
    (hc0 : ¬cond0_0 i) (hc1 : ¬cond0_1 i) (x0 : Vec F S1x2048 .i32) (x1 : Vec F S2048x64 .bf16) (xs0 : Vec F S4096x64 .f32) :
    sout0_B_0 c i arg2 harg2 arg3 harg3 arg4 harg4 arg5 harg5 hc0 hc1 x0 x1 xs0 = k0_pay2 i x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero (S := S4096x64) hz]
  simp only [View.readAt_eq_ld, harg2.read_unread, harg3.read_unread, harg5.read_unread, View.ld_unit_zero (S := S1x2048) hz,
    View.ld_unit_zero (S := S2048x64) hz, View.ld_unit_zero (S := S4096x64) hz]

/-- The last tile: the accumulator ends at what it held plus the tile's contribution … -/
theorem sout_C (c : Dev nD) (i : grid0.Coords) (arg2 : Memref sig .tc .vmem S1x2048 .i32) (harg2 : arg2.IsWhole)
    (arg3 : Memref sig .tc .vmem S2048x64 .bf16) (harg3 : arg3.IsWhole) (arg4 : Memref sig .tc .vmem S4096x64 .f32) (harg4 : arg4.IsWhole)
    (arg5 : Memref sig .tc .vmem S4096x64 .f32) (harg5 : arg5.IsWhole)
    (hc0 : ¬cond0_0 i) (hc1 : cond0_1 i) (x0 : Vec F S1x2048 .i32) (x1 : Vec F S2048x64 .bf16) (xs0 : Vec F S4096x64 .f32) :
    sout0_C_0 c i arg2 harg2 arg3 harg3 arg4 harg4 arg5 harg5 hc0 hc1 x0 x1 xs0 = k0_pay2 i x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero (S := S4096x64) hz]
  simp only [View.readAt_eq_ld, harg2.read_unread, harg3.read_unread, harg5.read_unread, View.ld_unit_zero (S := S1x2048) hz,
    View.ld_unit_zero (S := S2048x64) hz, View.ld_unit_zero (S := S4096x64) hz]

/-- … and the output block ends at that same value, read back from the accumulator. -/
theorem out_C (c : Dev nD) (i : grid0.Coords) (arg2 : Memref sig .tc .vmem S1x2048 .i32) (harg2 : arg2.IsWhole)
    (arg3 : Memref sig .tc .vmem S2048x64 .bf16) (harg3 : arg3.IsWhole) (arg4 : Memref sig .tc .vmem S4096x64 .f32) (harg4 : arg4.IsWhole)
    (arg5 : Memref sig .tc .vmem S4096x64 .f32) (harg5 : arg5.IsWhole)
    (hc0 : ¬cond0_0 i) (hc1 : cond0_1 i) (x0 : Vec F S1x2048 .i32) (x1 : Vec F S2048x64 .bf16) (xs0 : Vec F S4096x64 .f32) :
    out0_C_2 c i arg2 harg2 arg3 harg3 arg4 harg4 arg5 harg5 hc0 hc1 x0 x1 xs0 = k0_pay2 i x0 x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero (S := S4096x64) hz]
  simp only [View.readAt_eq_ld, harg2.read_unread, harg3.read_unread, harg5.read_unread, View.ld_unit_zero (S := S1x2048) hz,
    View.ld_unit_zero (S := S2048x64) hz, View.ld_unit_zero (S := S4096x64) hz, View.readCov_unit_zero (S := S4096x64) _ hz]

end Cert.KernelIdeal.Spmm

end
-- ==== Proof.LibPlainDot.lean ====
/-
  A matrix product read at an entry.

  For the dimension numbers of the plain product of an M × K matrix with a K × N matrix (contract the left
  operand's second axis against the right operand's first, no batch axis) the sum over the product's contraction
  index is the familiar sum over `k : Fin K` of `l (a, k) · r (k, b)`. Stated for ANY record with those dimension
  numbers, so one lemma serves every such product of a program whatever the three extents; the forms for a
  `tpu.matmul` into a zero accumulator and for the host's `dot_general` at the ideal values follow.
-/
import Idealize.ShloMosaic.PureOps.Ideal.Laws
import Idealize.ShloMosaic.Lib.ValueIdx

noncomputable section

namespace Cert.LibPlainDot

open Idealize.ShloMosaic Idealize.ShloMosaic.ValueIdx

variable {M K N : Nat}

/-- The plain product's sum over its contraction index is the sum over `k : Fin K` of `l (a, k) * r (k, b)`. -/
theorem dot_sum (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (a : Fin M) (b : Fin N) :
    ∑ k : d.contr.Idx, l (d.lhsIdx (ix2 a b) k) * r (d.rhsIdx (ix2 a b) k) = ∑ k : Fin K, l (ix2 a k) * r (ix2 k b) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  have l0 : ∀ q : d.contr.Idx, (d.lhsIdx (ix2 a b) q 0).val = a.val := by
    subst hd; intro q
    unfold DotDims.lhsIdx
    rw [dif_neg (show ¬ (0 : Fin 2) ∈ ([] : List (Fin 2)) from List.not_mem_nil),
      dif_pos (show (0 : Fin 2) ∈ ([0] : List (Fin 2)) from List.mem_singleton.mpr rfl)]
    rfl
  have r1 : ∀ q : d.contr.Idx, (d.rhsIdx (ix2 a b) q 1).val = b.val := by
    subst hd; intro q
    unfold DotDims.rhsIdx
    rw [dif_neg (show ¬ (1 : Fin 2) ∈ ([] : List (Fin 2)) from List.not_mem_nil),
      dif_pos (show (1 : Fin 2) ∈ ([1] : List (Fin 2)) from List.mem_singleton.mpr rfl)]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 a k := funext fun ax => Fin.ext (by
    match ax with
    | ⟨0, _⟩ => exact l0 _
    | ⟨1, _⟩ => exact (d.lhsIdx_val_of_single hlc _ _).trans hk)
  have er : d.rhsIdx (ix2 a b) ((contrEquiv1 d K hr hs).symm k) = ix2 k b := funext fun ax => Fin.ext (by
    match ax with
    | ⟨0, _⟩ => exact (d.rhsIdx_val_of_single hrc _ _).trans hk
    | ⟨1, _⟩ => exact r1 _)
  rw [el, er]

/-- A `tpu.matmul` of the plain dimension numbers into the zero accumulator, at the ideal values, at entry (a, b). -/
theorem matmul_zero_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (dot_sum d hlc hrc hln hrn hlb hrb l r a b)

/-- The host's `dot_general` of the plain dimension numbers, at the ideal values, at entry (a, b). -/
theorem dotGeneral_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (dot_sum d hlc hrc hln hrn hlb hrb l r a b)

end Cert.LibPlainDot

end
-- ==== Proof.Payload.lean ====
/-
  The kernel body's two stored values, read at an entry, over the extended reals.

  At a grid point (ni, ei) the body holds a tile of 2048 row words and the tile's 2048 × 64 edge values. It builds
  the 4096 × 2048 one-hot matrix whose entry (r, k) is 1 when row word k is the word of ni · 4096 + r and 0 otherwise,
  multiplies it with the edge values (a matrix product added to a zero accumulator), and adds the product to what the
  scratch accumulator held. At the first tile of a row block the scratch is first set to zero.
-/
import proofs.«406231_j32040456029042_1_alg».proof.Proof.Gen.KernelIdeal.Skeleton
import proofs.«406231_j32040456029042_1_alg».proof.Proof.LibPlainDot
import Idealize.ShloMosaic.Lib.ValueIdx
import Idealize.ShloMosaic.Lib.Pipeline.Value
import Idealize.ShloMosaic.PureOps.Ideal.Laws

noncomputable section

open scoped BigOperators

namespace Cert.KernelIdeal.Spmm

open Idealize.ShloMosaic Idealize.ShloMosaic.ValueIdx Cert.KernelIdeal Cert.KernelIdeal.Gen

/-- A row of 2048 entries stretched over 4096 rows reads, at (r, k), the row's entry k. -/
theorem bcast_row_apply {α : Type} (v : S1x2048.Idx → α) (h : S1x2048.Broadcasts S4096x2048) (r : Fin 4096) (k : Fin 2048) :
    broadcastTo S4096x2048 v h (ix2 r k) = v (ix2 (0 : Fin 1) k) :=
  broadcastTo_apply v h (ix2 r k) (ix2 (0 : Fin 1) k) (fun a => match a with
    | ⟨0, _⟩ => by show (0 : Nat) = if (1 : Nat) = 1 then 0 else _; rw [if_pos rfl]
    | ⟨1, _⟩ => by show k.val = if (2048 : Nat) = 1 then 0 else k.val; rw [if_neg (by decide)])

/-- A column of 4096 entries stretched over 2048 columns reads, at (r, k), the column's entry r. -/
theorem bcast_col_apply {α : Type} (v : S4096x1.Idx → α) (h : S4096x1.Broadcasts S4096x2048) (r : Fin 4096) (k : Fin 2048) :
    broadcastTo S4096x2048 v h (ix2 r k) = v (ix2 r (0 : Fin 1)) :=
  broadcastTo_apply v h (ix2 r k) (ix2 r (0 : Fin 1)) (fun a => match a with
    | ⟨0, _⟩ => by show r.val = if (4096 : Nat) = 1 then 0 else r.val; rw [if_neg (by decide)]
    | ⟨1, _⟩ => by show (0 : Nat) = if (1 : Nat) = 1 then 0 else _; rw [if_pos rfl])

/-- The word of `r` plus the word of `n` times 4096 is the word of `n * 4096 + r`. -/
theorem row_word (n r : ℕ) :
    IntOp.addi (BitVec.ofNat 32 r) (Scalar.muli (BitVec.ofNat 32 n) 4096#32) = BitVec.ofNat 32 (n * 4096 + r) := by
  apply BitVec.eq_of_toNat_eq
  simp [IntOp.addi, Scalar.muli, IntOp.muli]
  omega

/-- The equality bit of two words, widened to 32 bits and read as a signed integer over the extended reals, is 1 when
    the words are equal and 0 otherwise. -/
theorem onehot_word (a c : BitVec 32) :
    FloatOps.sitofp (F := Ideal) .f32 ((IntOp.cmpi .eq a c).setWidth 32) = if a = c then (1 : EReal) else 0 := by
  by_cases h : a = c
  · subst h
    simp [IntOp.cmpi, FloatOps.sitofp]
  · have hb : (a == c) = false := beq_eq_false_iff_ne.mpr h
    simp [IntOp.cmpi, FloatOps.sitofp, hb, h]

/-- The one-hot matrix at (r, k): 1 when row word k is the word of `n * 4096 + r`, else 0. -/
theorem onehot_apply (n : ℕ) (x0 : IVec S1x2048 32) (h1 : S1x2048.ShapeCasts S1x2048)
    (h2 : S1x2048.Broadcasts S4096x2048) (h3 : S4096x1.Iotas .tc 32 [0]) (h4 : S4096x1.Broadcasts S4096x2048)
    (h5 : 1 < 32) (h6 : FTy.bits .bf16 < FTy.bits .f32) (r : Fin 4096) (k : Fin 2048) :
    (truncf .bf16 (sitofp .f32 (extui 32 (cmpi .eq (broadcastTo S4096x2048 (shapeCast S1x2048 x0 h1) h2)
        (broadcastTo S4096x2048 (addi (iota .tc S4096x1 32 [0] h3)
          (broadcast S4096x1 (Scalar.muli (BitVec.ofNat 32 n) 4096#32))) h4)) h5)) h6 : FVec Ideal S4096x2048 .bf16) (ix2 r k)
      = if x0 (ix2 (0 : Fin 1) k) = BitVec.ofNat 32 (n * 4096 + r.val) then (1 : EReal) else 0 := by
  show FloatOps.sitofp (F := Ideal) .f32 ((IntOp.cmpi .eq
      (broadcastTo S4096x2048 (shapeCast S1x2048 x0 h1) h2 (ix2 r k))
      (broadcastTo S4096x2048 (addi (iota .tc S4096x1 32 [0] h3)
          (broadcast S4096x1 (Scalar.muli (BitVec.ofNat 32 n) 4096#32))) h4 (ix2 r k))).setWidth 32) = _
  rw [bcast_row_apply, bcast_col_apply, shapeCast_self, onehot_word]
  have e : addi (iota .tc S4096x1 32 [0] h3) (broadcast S4096x1 (Scalar.muli (BitVec.ofNat 32 n) 4096#32)) (ix2 r (0 : Fin 1))
      = IntOp.addi (BitVec.ofNat 32 (0 * 4096 + r.val)) (Scalar.muli (BitVec.ofNat 32 n) 4096#32) := rfl
  rw [e, Nat.zero_mul, Nat.zero_add, row_word]

/-- The reset value is zero at every entry. -/
theorem pay1_apply (r : Fin 4096) (b : Fin 64) : (k0_pay1 (F := Ideal)) (ix2 r b) = 0 := by
  unfold k0_pay1
  refine (congrFun (shapeCast_self _ _) (ix2 r b)).trans ?_
  exact Ideal.ofBits_zero_f32

/-- The accumulated value at entry (r, b): what the scratch held there plus the sum over the tile's 2048 edges of the
    one-hot entry times the edge's value in column b. -/
theorem pay2_apply (i : grid0.Coords) (x0 : IVec S1x2048 32) (x1 : FVec Ideal S2048x64 .bf16)
    (xs : FVec Ideal S4096x64 .f32) (r : Fin 4096) (b : Fin 64) :
    k0_pay2 (F := Ideal) i x0 x1 xs (ix2 r b)
      = xs (ix2 r b) + ∑ k : Fin 2048,
          (if x0 (ix2 (0 : Fin 1) k) = BitVec.ofNat 32 ((i 0).val * 4096 + r.val) then (1 : EReal) else 0) * x1 (ix2 k b) := by
  unfold k0_pay2
  refine (congrFun (shapeCast_self _ _) (ix2 r b)).trans ?_
  refine congrArg (xs (ix2 r b) + ·) ?_
  refine (Cert.LibPlainDot.matmul_zero_apply (M := 4096) (K := 2048) (N := 64)
    dot_S4096x2048_S2048x64_S4096x64_1_0_0_1_n_n rfl rfl rfl rfl rfl rfl none _ _ r b).trans ?_
  refine Finset.sum_congr rfl fun k _ => ?_
  refine congrArg₂ (· * ·) (onehot_apply (i 0).val x0 _ _ _ _ _ _ r k) ?_
  exact congrFun (shapeCast_self x1 _) (ix2 k b)

end Cert.KernelIdeal.Spmm

end
-- ==== Proof.HostIn.lean ====
/-
  What the kernel's two input windows range over: the padded row words and the padded edge values.

  Before the launch the program pads the 1920000 row words with 1024 copies of the word 122880 and lays them out as
  one row of 1921024 words; and it pads the 1920000 × 64 edge values (each edge's value times the gathered row of x,
  narrowed in format, which over the extended reals changes nothing) with 1024 rows of zeros. Read at an index, the
  first is the true row word below 1920000 and the sentinel from there on, the second the true edge value below
  1920000 and zero from there on.
-/
import proofs.«406231_j32040456029042_1_alg».proof.Proof.Gen.KernelIdeal.Launch
import Idealize.ShloMosaic.Lib.ValueIdx
import Idealize.ShloMosaic.Lib.Pipeline.Value
import Idealize.ShloMosaic.Lib.StableHlo.Run

noncomputable section

namespace Cert.KernelIdeal.Spmm

open Idealize.ShloMosaic Idealize.ShloMosaic.TcCoe Idealize.ShloMosaic.ValueIdx Idealize.SL.Sem
open Cert.KernelIdeal Cert.KernelIdeal.Gen

variable {F : FTy → Type} [FloatOps F]

/-- The edge values as the program computes them from its three arguments: the edge's value times the row of the
    transposed x that the edge's column index (a negative one moved up by 120000) selects. -/
def edgeVal (x0 : (⟨S64x120000, .f32⟩ : BufTy).Contents (Elt F)) (x1 : (⟨S2x1920000, .i32⟩ : BufTy).Contents (Elt F))
    (x2 : (⟨S1920000, .f32⟩ : BufTy).Contents (Elt F)) : (⟨S1920000x64, .f32⟩ : BufTy).Contents (Elt F) :=
  mulf (broadcastInDim S1920000x64 ![0, 1] bcast_S1920000x1_S1920000x64_0_1 (broadcastInDim S1920000x1 ![0] bcast_S1920000_S1920000x1_0 x2))
    (Host.gather gather_S120000x64_S1920000x1_S1920000x64_1_0_n_n_0_1_164 (transpose S120000x64 [1, 0] x0 transposes_S64x120000_S120000x64_1_0)
      (broadcastInDim S1920000x1 ![0] bcast_S1920000_S1920000x1_0
        (select (cmpi .slt (shapeCast _ (extractStridedSlice S1x1920000 ![1, 0] x1 slices_S2x1920000_S1x1920000_1_0) shapeCasts_S1x1920000_S1920000) (broadcastInDim S1920000 ![] bcast_S_S1920000 (constantI S_ 32 0#32)))
          (addi (shapeCast _ (extractStridedSlice S1x1920000 ![1, 0] x1 slices_S2x1920000_S1x1920000_1_0) shapeCasts_S1x1920000_S1920000) (broadcastInDim S1920000 ![] bcast_S_S1920000 (constantI S_ 32 120000#32)))
          (shapeCast _ (extractStridedSlice S1x1920000 ![1, 0] x1 slices_S2x1920000_S1x1920000_1_0) shapeCasts_S1x1920000_S1920000))))

/-- A list of 1920000 entries followed by 1024 more, read at a position below 1920000: the first list there. -/
theorem pad1_apply_lt {α : Type} (x : S1920000.Idx → α) (p : S1024.Idx → α)
    (h : Shape.Concatenates [S1920000, S1024] S1921024 0) (e : Fin 1921024) (he : e.val < 1920000) :
    concatenate S1921024 0 [⟨S1920000, x⟩, ⟨S1024, p⟩] h (ix1 e) = x (ix1 (⟨e.val, he⟩ : Fin 1920000)) :=
  concatenate_pair_apply_left (0 : Fin 1) x p h (ix1 e) rfl (ix1 (⟨e.val, he⟩ : Fin 1920000))
    (fun b => match b with | ⟨0, _⟩ => rfl)

/-- The same list read at a position from 1920000 on: the second list, 1920000 positions earlier. -/
theorem pad1_apply_ge {α : Type} (x : S1920000.Idx → α) (p : S1024.Idx → α)
    (h : Shape.Concatenates [S1920000, S1024] S1921024 0) (e : Fin 1921024) (he : 1920000 ≤ e.val) :
    concatenate S1921024 0 [⟨S1920000, x⟩, ⟨S1024, p⟩] h (ix1 e)
      = p (ix1 (⟨e.val - 1920000, by have := e.isLt; omega⟩ : Fin 1024)) :=
  concatenate_pair_apply_right (0 : Fin 1) x p h (ix1 e) rfl rfl (ix1 (⟨e.val - 1920000, by have := e.isLt; omega⟩ : Fin 1024))
    (fun b hb => match b with | ⟨0, _⟩ => absurd rfl hb)
    (by show (e.val - 1920000) + 1920000 = e.val; omega)

/-- A table of 1920000 rows of 64 followed by 1024 more rows, read in a row below 1920000: the first table there. -/
theorem pad2_apply_lt {α : Type} (x : S1920000x64.Idx → α) (p : S1024x64.Idx → α)
    (h : Shape.Concatenates [S1920000x64, S1024x64] S1921024x64 0) (e : Fin 1921024) (b : Fin 64) (he : e.val < 1920000) :
    concatenate S1921024x64 0 [⟨S1920000x64, x⟩, ⟨S1024x64, p⟩] h (ix2 e b) = x (ix2 (⟨e.val, he⟩ : Fin 1920000) b) :=
  concatenate_pair_apply_left (0 : Fin 2) x p h (ix2 e b) rfl (ix2 (⟨e.val, he⟩ : Fin 1920000) b)
    (fun a => match a with | ⟨0, _⟩ => rfl | ⟨1, _⟩ => rfl)

/-- The same table read in a row from 1920000 on: the second table, 1920000 rows earlier. -/
theorem pad2_apply_ge {α : Type} (x : S1920000x64.Idx → α) (p : S1024x64.Idx → α)
    (h : Shape.Concatenates [S1920000x64, S1024x64] S1921024x64 0) (e : Fin 1921024) (b : Fin 64) (he : 1920000 ≤ e.val) :
    concatenate S1921024x64 0 [⟨S1920000x64, x⟩, ⟨S1024x64, p⟩] h (ix2 e b)
      = p (ix2 (⟨e.val - 1920000, by have := e.isLt; omega⟩ : Fin 1024) b) :=
  concatenate_pair_apply_right (0 : Fin 2) x p h (ix2 e b) rfl rfl (ix2 (⟨e.val - 1920000, by have := e.isLt; omega⟩ : Fin 1024) b)
    (fun a ha => match a with | ⟨0, _⟩ => absurd rfl ha | ⟨1, _⟩ => rfl)
    (by show (e.val - 1920000) + 1920000 = e.val; omega)

/-- The first row of a 2 × 1920000 table, flattened, at position e is the table at (0, e). -/
theorem firstRow_apply {α : Type} (x : S2x1920000.Idx → α) (h1 : S2x1920000.Slices ![0, 0] S1x1920000)
    (h2 : S1x1920000.ShapeCasts S1920000) (e : Fin 1920000) :
    shapeCast S1920000 (extractStridedSlice S1x1920000 ![0, 0] x h1) h2 (ix1 e) = x (ix2 (0 : Fin 2) e) := by
  refine (shapeCast_apply _ h2 (ix1 e) (ix2 (0 : Fin 1) e) ?_).trans ?_
  · rewrite [Shape.rowMajor_val_two, Shape.rowMajor_val_one]
    show 0 * 1920000 + e.val = e.val
    omega
  · exact extractStridedSlice_apply ![0, 0] x h1 (ix2 (0 : Fin 1) e) (ix2 (0 : Fin 2) e) (fun a => match a with
      | ⟨0, _⟩ => by show (0 : Nat) = 0 + 0; rfl
      | ⟨1, _⟩ => by show e.val = 0 + e.val; omega)

/-- A list of 1921024 entries laid out as one row, read at (0, e), is the list at e. -/
theorem oneRow_apply {α : Type} (x : S1921024.Idx → α) (h : S1921024.ShapeCasts S1x1921024) (e : Fin 1921024) :
    shapeCast S1x1921024 x h (ix2 (0 : Fin 1) e) = x (ix1 e) := by
  refine shapeCast_apply x h (ix2 (0 : Fin 1) e) (ix1 e) ?_
  rewrite [Shape.rowMajor_val_one, Shape.rowMajor_val_two]
  show e.val = 0 * 1921024 + e.val
  omega

/-- The 16-bit zero word encodes the extended real 0. -/
theorem ofBits_bf16_zero : Ideal.ofBits .bf16 0x0000#16 = 0 := by simp [Ideal.ofBits, Ideal.ieee]

variable (m : (ℓ : Loc nD τ sig) → Buf (Elt F) ℓ)

/-- What the operations before the launch leave in the row-word window's array: the first row of the index pair,
    followed by 1024 copies of the word 122880, laid out as one row. -/
theorem rowsPad_term (c : Dev nD) :
    StableHlo.after (hostOps0 (F := F)) (fun b => m (c, b)) (Proc.devRef .tc main_v20)
      = shapeCast S1x1921024 (concatenate S1921024 0 [⟨S1920000, shapeCast _ (extractStridedSlice S1x1920000 ![0, 0] (m ((c : Thread nD τ).loc main_arg1)) slices_S2x1920000_S1x1920000_0_0) shapeCasts_S1x1920000_S1920000⟩, ⟨S1024, broadcastInDim S1024 ![] bcast_S_S1024 (constantI S_ 32 122880#32)⟩] concatenates_S1920000_S1024_S1921024_d0) shapeCasts_S1921024_S1x1921024 := by
  after_results <;> rfl

/-- The row-word window's array (what the operations before the launch leave in it) at position e: the true row word below 1920000, the sentinel 122880 from there on. -/
theorem rowsPad_apply (c : Dev nD) (e : Fin 1921024) :
    StableHlo.after (hostOps0 (F := F)) (fun b => m (c, b)) (Proc.devRef .tc main_v20) (ix2 (0 : Fin 1) e)
      = if h : e.val < 1920000 then m ((c : Thread nD τ).loc main_arg1) (ix2 (0 : Fin 2) (⟨e.val, h⟩ : Fin 1920000)) else 122880#32 := by
  rw [rowsPad_term, oneRow_apply]
  by_cases h : e.val < 1920000
  · rw [dif_pos h, pad1_apply_lt _ _ _ e h, firstRow_apply]
  · rw [dif_neg h, pad1_apply_ge _ _ _ e (by omega)]
    exact broadcastInDim_apply ![] bcast_S_S1024 (constantI S_ 32 122880#32) _ ix0 (fun a => a.elim0)

/-- What the operations before the launch leave in the edge-value window's array, over the extended reals: the edge
    values, narrowed in format, followed by 1024 rows of zeros. -/
theorem updPad_term (m : (ℓ : Loc nD τ sig) → Buf (Elt Ideal) ℓ) (c : Dev nD) :
    StableHlo.after (hostOps0 (F := Ideal)) (fun b => m (c, b)) (Proc.devRef .tc main_v19)
      = concatenate S1921024x64 0 [⟨S1920000x64, truncf .bf16 (edgeVal (F := Ideal) (m ((c : Thread nD τ).loc main_arg0)) (m ((c : Thread nD τ).loc main_arg1)) (m ((c : Thread nD τ).loc main_arg2))) bitsLt_bf16_f32⟩, ⟨S1024x64, broadcastInDim S1024x64 ![] bcast_S_S1024x64 (constant (F := Ideal) S_ .bf16 0x0000#16)⟩] concatenates_S1920000x64_S1024x64_S1921024x64_d0 := by
  after_results <;> rfl

/-- The edge-value window's array at (e, b), over the extended reals: the true edge value below 1920000, zero from
    there on. -/
theorem updPad_apply (m : (ℓ : Loc nD τ sig) → Buf (Elt Ideal) ℓ) (c : Dev nD) (e : Fin 1921024) (b : Fin 64) :
    StableHlo.after (hostOps0 (F := Ideal)) (fun b => m (c, b)) (Proc.devRef .tc main_v19) (ix2 e b)
      = if h : e.val < 1920000 then edgeVal (F := Ideal) (m ((c : Thread nD τ).loc main_arg0)) (m ((c : Thread nD τ).loc main_arg1))
            (m ((c : Thread nD τ).loc main_arg2)) (ix2 (⟨e.val, h⟩ : Fin 1920000) b) else 0 := by
  rw [updPad_term]
  by_cases h : e.val < 1920000
  · rw [dif_pos h, pad2_apply_lt _ _ _ e b h]
    rfl
  · rw [dif_neg h, pad2_apply_ge _ _ _ e b (by omega)]
    refine (broadcastInDim_apply ![] bcast_S_S1024x64 (constant (F := Ideal) S_ .bf16 0x0000#16) _ ix0 (fun a => a.elim0)).trans ?_
    exact ofBits_bf16_zero

end Cert.KernelIdeal.Spmm

end
-- ==== Proof.Spec.lean ====
/-
  The mathematics of a sparse matrix product written as a scatter of edges, apart from any program.

  An edge `e` carries a row word `rows e` and, per column `b`, a value `g e b`. Row `n` of the product is the
  sum of `g e b` over the edges whose row word is `n`. A tiled evaluation pads the edge stream to a whole number
  of tiles of 2048 edges — a padding edge carries the row word 122880, which no row below 122880 equals, and the
  value 0 — and adds, tile after tile, the products of a one-hot entry (1 when the edge's row word is `n`, else 0)
  with the edge's value. This file states that running sum in the order the tiles are visited and shows that after
  the last of the 938 tiles it is the sum over the 1920000 true edges whose row word, read as a signed integer,
  is `n`.
-/
import Idealize.ShloMosaic.PureOps.Ideal
import Idealize.ShloMosaic.Lib.ValueIdx

noncomputable section

open scoped BigOperators

namespace Cert.Spmm

/-- The row word of edge `e` of the padded stream: the true word below 1920000, the sentinel 122880 from there on. -/
def rowPad (rows : Fin 1920000 → BitVec 32) (e : ℕ) : BitVec 32 :=
  if h : e < 1920000 then rows ⟨e, h⟩ else 122880#32

/-- The value of edge `e` of the padded stream in column `b`: the true value below 1920000, zero from there on. -/
def updPad (g : Fin 1920000 → Fin 64 → EReal) (e : ℕ) (b : Fin 64) : EReal :=
  if h : e < 1920000 then g ⟨e, h⟩ b else 0

/-- The one-hot entry: 1 when the row word is the 32-bit word of `n`, else 0. -/
def hot (r : BitVec 32) (n : ℕ) : EReal := if r = BitVec.ofNat 32 n then 1 else 0

/-- What edge `e` of the padded stream adds to row `n`, column `b`. -/
def term (rows : Fin 1920000 → BitVec 32) (g : Fin 1920000 → Fin 64 → EReal) (n : ℕ) (b : Fin 64) (e : ℕ) : EReal :=
  hot (rowPad rows e) n * updPad g e b

/-- What tile `j` of 2048 edges adds to row `n`, column `b`. -/
def tileSum (rows : Fin 1920000 → BitVec 32) (g : Fin 1920000 → Fin 64 → EReal) (n : ℕ) (b : Fin 64) (j : ℕ) : EReal :=
  ∑ k : Fin 2048, term rows g n b (j * 2048 + k.val)

/-- The running sum after tile `j`, in the order the tiles are visited: zero plus the first tile, then one tile more
    each time. -/
def acc (rows : Fin 1920000 → BitVec 32) (g : Fin 1920000 → Fin 64 → EReal) (n : ℕ) (b : Fin 64) : ℕ → EReal
  | 0 => 0 + tileSum rows g n b 0
  | j + 1 => acc rows g n b j + tileSum rows g n b (j + 1)

/-- The running sum after tile `j` is the sum of the tiles `0, …, j`. -/
theorem acc_eq_sum (rows : Fin 1920000 → BitVec 32) (g : Fin 1920000 → Fin 64 → EReal) (n : ℕ) (b : Fin 64) (j : ℕ) :
    acc rows g n b j = ∑ i ∈ Finset.range (j + 1), tileSum rows g n b i := by
  induction j with
  | zero => simp [acc]
  | succ j ih => rw [acc, ih, Finset.sum_range_succ _ (j + 1)]

/-- A sum over `m` tiles of width `w` is the sum over the first `m * w` naturals. -/
theorem sum_tiles {M : Type*} [AddCommMonoid M] (f : ℕ → M) (w m : ℕ) :
    ∑ j ∈ Finset.range m, ∑ k : Fin w, f (j * w + k.val) = ∑ e ∈ Finset.range (m * w), f e := by
  induction m with
  | zero => simp
  | succ m ih =>
    rw [Finset.sum_range_succ, ih, Nat.succ_mul, Finset.sum_range_add, Finset.sum_range (fun x => f (m * w + x))]

/-- For `n` below 120000, hence below `2 ^ 31`, a 32-bit word is the word of `n` exactly when its signed value is `n`. -/
theorem eq_ofNat_iff_toInt (r : BitVec 32) (n : ℕ) (hn : n < 120000) :
    r = BitVec.ofNat 32 n ↔ r.toInt = (n : Int) := by
  constructor
  · intro h
    subst h
    rw [BitVec.toInt_ofNat']
    have h2 : (2 : ℕ) ^ 32 = 4294967296 := by norm_num
    rw [h2, Int.bmod_def]
    omega
  · intro h
    apply BitVec.eq_of_toInt_eq
    rw [h, BitVec.toInt_ofNat']
    have h2 : (2 : ℕ) ^ 32 = 4294967296 := by norm_num
    rw [h2, Int.bmod_def]
    omega

/-- A padding edge adds nothing. -/
theorem term_pad (rows : Fin 1920000 → BitVec 32) (g : Fin 1920000 → Fin 64 → EReal) (n : ℕ) (b : Fin 64) (e : ℕ)
    (he : 1920000 ≤ e) : term rows g n b e = 0 := by
  have h : ¬ e < 1920000 := by omega
  simp [term, updPad, h]

/-- A true edge adds its value when its row word read as a signed integer is `n`, else nothing. -/
theorem term_true (rows : Fin 1920000 → BitVec 32) (g : Fin 1920000 → Fin 64 → EReal) (n : ℕ) (hn : n < 120000)
    (b : Fin 64) (i : Fin 1920000) :
    term rows g n b i.val = if (rows i).toInt = (n : Int) then g i b else 0 := by
  have h : i.val < 1920000 := i.isLt
  simp only [term, rowPad, updPad, hot, h, dite_true, Fin.eta, eq_ofNat_iff_toInt _ n hn, ite_mul, one_mul, zero_mul]

/-- After the last tile the running sum of a row below 120000 is the sum, over the true edges whose row word read as a
    signed integer is that row, of the edge's value. -/
theorem acc_last (rows : Fin 1920000 → BitVec 32) (g : Fin 1920000 → Fin 64 → EReal) (n : ℕ) (hn : n < 120000)
    (b : Fin 64) :
    acc rows g n b 937 = ∑ i : Fin 1920000, if (rows i).toInt = (n : Int) then g i b else 0 := by
  rw [acc_eq_sum]
  have h1 : ∑ i ∈ Finset.range (937 + 1), tileSum rows g n b i
      = ∑ e ∈ Finset.range (938 * 2048), term rows g n b e := by
    unfold tileSum
    exact sum_tiles (term rows g n b) 2048 938
  rw [h1, show (938 * 2048 : ℕ) = 1920000 + 1024 by norm_num, Finset.sum_range_add]
  have h2 : ∑ x ∈ Finset.range 1024, term rows g n b (1920000 + x) = 0 :=
    Finset.sum_eq_zero (fun x _ => term_pad rows g n b _ (by omega))
  rw [h2, add_zero, Finset.sum_range]
  exact Finset.sum_congr rfl (fun i _ => term_true rows g n hn b i)

end Cert.Spmm

end
-- ==== Proof.Blocks.lean ====
/-
  The kernel's two input blocks at a grid point are stretches of the padded edge stream.

  Grid point t is (row block t / 938, edge tile t % 938). The row-word window's block there is words
  (t % 938) · 2048 … + 2047 of the padded row words, and the edge-value window's block the same rows of the padded
  edge values. Both are stated through the padded stream of the specification: its row words are the first row of the
  program's index argument, its values the program's edge values.
-/
import proofs.«406231_j32040456029042_1_alg».proof.Proof.Gen.KernelIdeal.Frame.Runs
import proofs.«406231_j32040456029042_1_alg».proof.Proof.HostIn
import proofs.«406231_j32040456029042_1_alg».proof.Proof.Spec
import Idealize.ShloMosaic.Lib.ValueIdx
import Idealize.ShloMosaic.Lib.Pipeline.Value

noncomputable section

namespace Cert.KernelIdeal.Spmm

open Idealize.ShloMosaic Idealize.ShloMosaic.TcCoe Idealize.ShloMosaic.ValueIdx Idealize.SL.Sem
open Cert.KernelIdeal Cert.KernelIdeal.Gen

/-! ## The grid in closed form -/

theorem stride0 : grid0.stride 0 = 938 := by decide
theorem stride1 : grid0.stride 1 = 1 := by decide

/-- The first coordinate of point t is t / 938 (there are 30 · 938 points). -/
theorem coords0 (t : Fin cfg0.N) : (grid0.coords t 0).val = t.val / 938 := by
  have hN : t.val < 28140 := lt_of_lt_of_eq t.isLt (show cfg0.N = 28140 from N_0)
  show t.val / grid0.stride 0 % 30 = _
  rw [stride0]; omega

/-- The second coordinate of point t is t % 938. -/
theorem coords1 (t : Fin cfg0.N) : (grid0.coords t 1).val = t.val % 938 := by
  show t.val / grid0.stride 1 % 938 = _
  rw [stride1]; omega

/-- The block indices of the three windows at point t: the row words move along their second axis with the edge tile,
    the edge values along their first axis with the edge tile, the output along its first axis with the row block. -/
theorem idx0_0 (t : Fin cfg0.N) : win0_0.index t (0 : Fin 2) = 0 := rfl
theorem idx0_1 (t : Fin cfg0.N) : win0_0.index t (1 : Fin 2) = t.val % 938 := by
  show (BitVec.ofNat 32 (grid0.coords t 1).val).toNat = _
  rw [coords1, BitVec.toNat_ofNat]; omega
theorem idx1_0 (t : Fin cfg0.N) : win0_1.index t (0 : Fin 2) = t.val % 938 := by
  show (BitVec.ofNat 32 (grid0.coords t 1).val).toNat = _
  rw [coords1, BitVec.toNat_ofNat]; omega
theorem idx1_1 (t : Fin cfg0.N) : win0_1.index t (1 : Fin 2) = 0 := rfl
theorem idx2_0 (t : Fin cfg0.N) : win0_2.index t (0 : Fin 2) = t.val / 938 := by
  have hN : t.val < 28140 := lt_of_lt_of_eq t.isLt (show cfg0.N = 28140 from N_0)
  show (BitVec.ofNat 32 (grid0.coords t 0).val).toNat = _
  rw [coords0, BitVec.toNat_ofNat]; omega
theorem idx2_1 (t : Fin cfg0.N) : win0_2.index t (1 : Fin 2) = 0 := rfl

/-! ## The padded stream of this program -/

section
variable {F : FTy → Type} [FloatOps F]
variable (m : (ℓ : Loc nD τ sig) → Buf (Elt F) ℓ)

/-- Edge i's row word: entry (0, i) of the index argument. -/
def rowsOf (c : Dev nD) : Fin 1920000 → BitVec 32 := fun i => m ((c : Thread nD τ).loc main_arg1) (ix2 (0 : Fin 2) i)

/-- The row-word block at point t, at its literal type. -/
abbrev rblk (c : Dev nD) (t : Fin cfg0.N) : Vec F S1x2048 .i32 := iblk m c 0 t
/-- The edge-value block at point t, at its literal type. -/
abbrev gblk (c : Dev nD) (t : Fin cfg0.N) : Vec F S2048x64 .bf16 := iblk m c 1 t

/-- What the region finds in a buffer is what the operations before the launch leave in it. -/
theorem V_eq_after (c : Dev nD) (b : Ref sig .tc) :
    V m c b = StableHlo.after (hostOps0 (F := F)) (fun b => m (c, b)) (Proc.devRef .tc b) := by
  show StableHlo.after (List.flatten [hostOps0]) (fun b => m (c, b)) (Proc.devRef .tc b) = _
  simp only [List.flatten_cons, List.flatten_nil, List.append_nil]

/-- Word k of the row-word block at point t is word (t % 938) · 2048 + k of the padded row words. -/
theorem rblk_apply (c : Dev nD) (t : Fin cfg0.N) (k : Fin 2048) :
    rblk m c t (ix2 (0 : Fin 1) k) = Cert.Spmm.rowPad (rowsOf m c) ((t.val % 938) * 2048 + k.val) := by
  have hk : k.val < 2048 := k.isLt
  have hlt : (t.val % 938) * 2048 + k.val < 1921024 := by omega
  have hread : rblk m c t (ix2 (0 : Fin 1) k)
      = V m c main_v20 (ix2 (0 : Fin 1) (⟨(t.val % 938) * 2048 + k.val, hlt⟩ : Fin 1921024)) := by
    show V m c main_v20 (((cfg0.win 0).blk t).view.emb (ix2 (0 : Fin 1) k)) = _
    refine congrArg (V m c main_v20) (funext fun a => Fin.ext ?_)
    match a with
    | ⟨0, _⟩ => show win0_0.index t (0 : Fin 2) * 1 + 1 * 0 = 0; rw [idx0_0]
    | ⟨1, _⟩ => show win0_0.index t (1 : Fin 2) * 2048 + 1 * k.val = (t.val % 938) * 2048 + k.val; rw [idx0_1]; omega
  rw [hread, V_eq_after, rowsPad_apply]
  rfl

end

/-- Edge i's value in column b, over the extended reals. -/
def valsOf (m : (ℓ : Loc nD τ sig) → Buf (Elt Ideal) ℓ) (c : Dev nD) : Fin 1920000 → Fin 64 → EReal := fun i b =>
  edgeVal (F := Ideal) (m ((c : Thread nD τ).loc main_arg0)) (m ((c : Thread nD τ).loc main_arg1))
    (m ((c : Thread nD τ).loc main_arg2)) (ix2 i b)

/-- Entry (k, b) of the edge-value block at point t is entry ((t % 938) · 2048 + k, b) of the padded edge values. -/
theorem gblk_apply (m : (ℓ : Loc nD τ sig) → Buf (Elt Ideal) ℓ) (c : Dev nD) (t : Fin cfg0.N) (k : Fin 2048) (b : Fin 64) :
    gblk m c t (ix2 k b) = Cert.Spmm.updPad (valsOf m c) ((t.val % 938) * 2048 + k.val) b := by
  have hk : k.val < 2048 := k.isLt
  have hlt : (t.val % 938) * 2048 + k.val < 1921024 := by omega
  have hread : gblk m c t (ix2 k b)
      = V m c main_v19 (ix2 (⟨(t.val % 938) * 2048 + k.val, hlt⟩ : Fin 1921024) b) := by
    show V m c main_v19 (((cfg0.win 1).blk t).view.emb (ix2 k b)) = _
    refine congrArg (V m c main_v19) (funext fun a => Fin.ext ?_)
    match a with
    | ⟨0, _⟩ => show win0_1.index t (0 : Fin 2) * 2048 + 1 * k.val = (t.val % 938) * 2048 + k.val; rw [idx1_0]; omega
    | ⟨1, _⟩ => show win0_1.index t (1 : Fin 2) * 64 + 1 * b.val = b.val; rw [idx1_1]; omega
  rw [hread, V_eq_after, updPad_apply]
  rfl

end Cert.KernelIdeal.Spmm

end
-- ==== Proof.Accum.lean ====
/-
  The accumulator after each grid point is the specification's running sum.

  By induction along the grid. Within row block ni the accumulator is reset at the first edge tile and from then on
  gains one tile's contribution per point, which is how the specification's running sum is defined; so after point
  t = ni · 938 + ei its entry (r, b) is the running sum of row ni · 4096 + r, column b, after tile ei. At the last
  tile the output block receives the same values.
-/
import proofs.«406231_j32040456029042_1_alg».proof.Proof.Pieces
import proofs.«406231_j32040456029042_1_alg».proof.Proof.Payload
import proofs.«406231_j32040456029042_1_alg».proof.Proof.Blocks

noncomputable section

open scoped BigOperators

namespace Cert.KernelIdeal.Spmm

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- One point's store at entry (r, b): what the accumulator held there plus the point's tile of the specification. -/
theorem step (c : Dev nD) (t : Fin cfg0.N) (xs : FVec Ideal S4096x64 .f32) (r : Fin 4096) (b : Fin 64) :
    k0_pay2 (F := Ideal) (grid0.coords t) (rblk m c t) (gblk m c t) xs (ix2 r b)
      = xs (ix2 r b) + Cert.Spmm.tileSum (rowsOf m c) (valsOf m c) ((t.val / 938) * 4096 + r.val) b (t.val % 938) := by
  refine (pay2_apply (grid0.coords t) (rblk m c t) (gblk m c t) xs r b).trans ?_
  refine congrArg (xs (ix2 r b) + ·) ?_
  unfold Cert.Spmm.tileSum
  refine Finset.sum_congr rfl fun k _ => ?_
  rw [rblk_apply, gblk_apply, coords0]
  rfl

/-- The accumulator after point n, entry (r, b): the running sum of row (n / 938) · 4096 + r after tile n % 938. -/
theorem scratch_eq (c : Dev nD) : ∀ (n : ℕ) (h : n < cfg0.N) (r : Fin 4096) (b : Fin 64),
    (outsAt0 m c n h).2 (ix2 r b)
      = Cert.Spmm.acc (rowsOf m c) (valsOf m c) ((n / 938) * 4096 + r.val) b (n % 938) := by
  intro n
  induction n with
  | zero =>
    intro h r b
    have e := outsAt0_A m c ⟨0, h⟩ (Nat.zero_mod _) (by show ¬ ((0 : ℕ) % 938 = 937); decide)
    rw [show outsAt0 m c 0 h = outsAt0 m c (⟨0, h⟩ : Fin cfg0.N).val (⟨0, h⟩ : Fin cfg0.N).isLt from rfl, e]
    dsimp only
    refine (congrFun (sout_A (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) _ _ (iblk m c 0 ⟨0, h⟩) (iblk m c 1 ⟨0, h⟩)) (ix2 r b)).trans ?_
    refine (step m c ⟨0, h⟩ (k0_pay1 (F := Ideal)) r b).trans ?_
    rw [pay1_apply]
    rfl
  | succ n ih =>
    intro h r b
    have hN : n + 1 < 28140 := lt_of_lt_of_eq h (show cfg0.N = 28140 from N_0)
    by_cases h0 : (n + 1) % 938 = 0
    · have h1 : ¬ (n + 1) % 938 = 937 := by omega
      have e := outsAt0_A m c ⟨n + 1, h⟩ h0 h1
      rw [show outsAt0 m c (n + 1) h = outsAt0 m c (⟨n + 1, h⟩ : Fin cfg0.N).val (⟨n + 1, h⟩ : Fin cfg0.N).isLt from rfl, e]
      dsimp only
      refine (congrFun (sout_A (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) _ _ (iblk m c 0 ⟨n + 1, h⟩) (iblk m c 1 ⟨n + 1, h⟩)) (ix2 r b)).trans ?_
      refine (step m c ⟨n + 1, h⟩ (k0_pay1 (F := Ideal)) r b).trans ?_
      rw [pay1_apply]
      show 0 + Cert.Spmm.tileSum _ _ _ b ((n + 1) % 938) = Cert.Spmm.acc _ _ _ b ((n + 1) % 938)
      rw [h0]
      rfl
    · have hd : (n + 1) / 938 = n / 938 := by omega
      have hm : (n + 1) % 938 = n % 938 + 1 := by omega
      have ih' := ih (Nat.lt_of_succ_lt h) r b
      by_cases h1 : (n + 1) % 938 = 937
      · have e := outsAt0_C m c ⟨n + 1, h⟩ h0 h1
        rw [show outsAt0 m c (n + 1) h = outsAt0 m c (⟨n + 1, h⟩ : Fin cfg0.N).val (⟨n + 1, h⟩ : Fin cfg0.N).isLt from rfl, e]
        dsimp only
        refine (congrFun (sout_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) _ _ (iblk m c 0 ⟨n + 1, h⟩) (iblk m c 1 ⟨n + 1, h⟩)
          (outsAt0 m c n (Nat.lt_of_succ_lt h)).2) (ix2 r b)).trans ?_
        refine (step m c ⟨n + 1, h⟩ (outsAt0 m c n (Nat.lt_of_succ_lt h)).2 r b).trans ?_
        rw [ih']
        show Cert.Spmm.acc _ _ (n / 938 * 4096 + r.val) b (n % 938) + Cert.Spmm.tileSum _ _ ((n + 1) / 938 * 4096 + r.val) b ((n + 1) % 938)
          = Cert.Spmm.acc _ _ ((n + 1) / 938 * 4096 + r.val) b ((n + 1) % 938)
        rw [hd, hm]
        rfl
      · have e := outsAt0_B m c ⟨n + 1, h⟩ h0 h1
        rw [show outsAt0 m c (n + 1) h = outsAt0 m c (⟨n + 1, h⟩ : Fin cfg0.N).val (⟨n + 1, h⟩ : Fin cfg0.N).isLt from rfl, e]
        dsimp only
        refine (congrFun (sout_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) _ _ (iblk m c 0 ⟨n + 1, h⟩) (iblk m c 1 ⟨n + 1, h⟩)
          (outsAt0 m c n (Nat.lt_of_succ_lt h)).2) (ix2 r b)).trans ?_
        refine (step m c ⟨n + 1, h⟩ (outsAt0 m c n (Nat.lt_of_succ_lt h)).2 r b).trans ?_
        rw [ih']
        show Cert.Spmm.acc _ _ (n / 938 * 4096 + r.val) b (n % 938) + Cert.Spmm.tileSum _ _ ((n + 1) / 938 * 4096 + r.val) b ((n + 1) % 938)
          = Cert.Spmm.acc _ _ ((n + 1) / 938 * 4096 + r.val) b ((n + 1) % 938)
        rw [hd, hm]
        rfl

/-- At the last tile of a row block the output block holds the completed running sums. -/
theorem out_eq (c : Dev nD) (t : Fin cfg0.N) (h1 : t.val % 938 = 937) (r : Fin 4096) (b : Fin 64) :
    (outsAt0 m c t.val t.isLt).1 (ix2 r b)
      = Cert.Spmm.acc (rowsOf m c) (valsOf m c) ((t.val / 938) * 4096 + r.val) b 937 := by
  have hN : t.val < 28140 := lt_of_lt_of_eq t.isLt (show cfg0.N = 28140 from N_0)
  have h0 : ¬ t.val % 938 = 0 := by omega
  have hpos : 0 < t.val := by omega
  have hlt : t.val - 1 < cfg0.N := Nat.lt_of_le_of_lt (Nat.sub_le _ _) t.isLt
  rw [outsAt0_C m c t h0 h1]
  dsimp only
  refine (congrFun (out_C (F := Ideal) c (grid0.coords t) (ms0_0 t) (hs0_0 t) (ms0_1 t) (hs0_1 t) (ms0_2 t) (hs0_2 t) scM0_0 (Memref.isWhole_whole _) _ _ (iblk m c 0 t) (iblk m c 1 t)
    (outsAt0 m c (t.val - 1) hlt).2) (ix2 r b)).trans ?_
  refine (step m c t (outsAt0 m c (t.val - 1) hlt).2 r b).trans ?_
  rw [scratch_eq m c (t.val - 1) hlt r b]
  have hd : (t.val - 1) / 938 = t.val / 938 := by omega
  have hm : (t.val - 1) % 938 = 936 := by omega
  rw [hd, hm, h1]
  rfl

end Cert.KernelIdeal.Spmm

end
-- ==== Proof.Final.lean ====
/-
  The kernel program's result, read at an entry.

  Each row block's output is written back once, after the block's last edge tile, and the 30 blocks tile the
  122880 × 64 output array; so the array ends at the completed running sums. The program then keeps the first
  120000 rows and transposes. By the specification, entry (b, n) of the result is the sum, over the edges whose row
  word read as a signed integer is n, of the edge's value in column b.
-/
import proofs.«406231_j32040456029042_1_alg».proof.Proof.Accum
import Idealize.ShloMosaic.Lib.StableHlo.Run

noncomputable section

open scoped BigOperators

namespace Cert.KernelIdeal.Spmm

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The output array after the run: entry (n, b) is the completed running sum of row n, column b. -/
def outArr (c : Dev nD) : S122880x64.Idx → EReal := fun j =>
  Cert.Spmm.acc (rowsOf m c) (valsOf m c) (j 0).val (⟨(j 1).val, (j 1).isLt⟩ : Fin 64) 937

/-- What the write-back after a row block's last tile writes is that block of the completed sums. -/
theorem flushed_eq (c : Dev nD) (t : Fin cfg0.N) (hf : (cfg0.win 2).flush t = true) :
    (dats m 0 c).flushed 2 t = ((cfg0.win 2).blk t).view.read (Elt Ideal) (outArr m c) := by
  have h1 : t.val % 938 = 937 := (flush0_2 t).mp hf
  show (cfg0.win 2).cut (grid0.coords t) ((dats m 0 c).after 2 t) = _
  rw [after0_2]
  funext y
  obtain ⟨r, b, rfl⟩ : ∃ (r : Fin 4096) (b : Fin 64), y = ix2 r b := ⟨y 0, y 1, eq_ix2 y⟩
  show (outsAt0 m c t.val t.isLt).1 (ix2 r b) = outArr m c (((cfg0.win 2).blk t).view.emb (ix2 r b))
  rw [out_eq m c t h1 r b]
  unfold outArr
  have e0 : ((((cfg0.win 2).blk t).view.emb (ix2 r b)) 0).val = t.val / 938 * 4096 + r.val := by
    show win0_2.index t (0 : Fin 2) * 4096 + 1 * r.val = _
    rw [idx2_0]; omega
  have e1 : ((((cfg0.win 2).blk t).view.emb (ix2 r b)) 1).val = b.val := by
    show win0_2.index t (1 : Fin 2) * 64 + 1 * b.val = _
    rw [idx2_1]; omega
  rw [e0]
  exact congrArg (fun q : Fin 64 => Cert.Spmm.acc (rowsOf m c) (valsOf m c) (t.val / 938 * 4096 + r.val) q 937) (Fin.ext e1.symm)

/-- Every entry of the output array lies in the block some row block's last point writes back. -/
theorem cover (c : Dev nD) (i : S122880x64.Idx) :
    ∃ t : Fin cfg0.N, (cfg0.win 2).flush t = true ∧ i ∈ ((cfg0.win 2).blk t).view.set := by
  have h0 : (i 0).val < 122880 := (i 0).isLt
  have h1 : (i 1).val < 64 := (i 1).isLt
  have hN : cfg0.N = 28140 := N_0
  have htv : (i 0).val / 4096 * 938 + 937 < cfg0.N := by rw [hN]; omega
  refine ⟨⟨(i 0).val / 4096 * 938 + 937, htv⟩, (flush0_2 _).mpr (by show ((i 0).val / 4096 * 938 + 937) % 938 = 937; omega), ?_⟩
  show i ∈ ((View.whole main_v21).slice (win0_2.rect ⟨(i 0).val / 4096 * 938 + 937, htv⟩)).set
  rw [View.set_slice_whole, Rect.mem_set_unit]
  intro a
  match a with
  | ⟨0, _⟩ =>
    show win0_2.index ⟨(i 0).val / 4096 * 938 + 937, htv⟩ (0 : Fin 2) * 4096 ≤ (i 0).val
      ∧ (i 0).val < win0_2.index ⟨(i 0).val / 4096 * 938 + 937, htv⟩ (0 : Fin 2) * 4096 + 4096
    rw [idx2_0]
    show ((i 0).val / 4096 * 938 + 937) / 938 * 4096 ≤ (i 0).val ∧ (i 0).val < ((i 0).val / 4096 * 938 + 937) / 938 * 4096 + 4096
    omega
  | ⟨1, _⟩ =>
    show win0_2.index ⟨(i 0).val / 4096 * 938 + 937, htv⟩ (1 : Fin 2) * 64 ≤ (i 1).val
      ∧ (i 1).val < win0_2.index ⟨(i 0).val / 4096 * 938 + 937, htv⟩ (1 : Fin 2) * 64 + 64
    rw [idx2_1]
    omega

/-- So the output array ends at the completed running sums. -/
theorem final (c : Dev nD) : (dats m 0 c).arrAt 2 cfg0.N = outArr m c :=
  (dats m 0 c).arrAt_eq_of_cover 2 (outArr m c) (flushed_eq m c) (cover c)

/-- The program's result: the first 120000 rows of the output array, transposed. -/
def result (c : Dev nD) : S64x120000.Idx → EReal :=
  transpose S64x120000 [1, 0] (extractStridedSlice S120000x64 ![0, 0] (outArr m c) slices_S122880x64_S120000x64_0_0)
    transposes_S120000x64_S64x120000_1_0

/-- The operations after the launch leave that in the program's result buffer. -/
theorem tail_eq (c : Dev nD) :
    Pipeline.afterTail₀ cfgs (dats m) 0 (V0 m) [hostOps1] c main_v23 = result m c := by
  have hw : Pipeline.withArrays (cfgs 0).spec c (V0 m c) (fun w => (dats m 0 c).arrAt w (cfgs 0).N) (Proc.devRef .tc main_v21)
      = outArr m c :=
    (Pipeline.withArrays_arr spec0 launch0.win.arr_inj c (V0 m c) (fun w => (dats m 0 c).arrAt w cfg0.N) 2).trans (final m c)
  unfold Pipeline.afterTail₀
  show StableHlo.after hostOps1 _ (Proc.devRef .tc main_v23) = _
  after_results
  rw [hw]
  rfl

/-- Every weakly fair execution of the program ends with the result buffer at `result` and the arguments unchanged. -/
theorem run : θ_run defs (onTc (τ := τ) (main (F := Ideal))) ⟨m, fun _ => 0, ρ⟩ fun r => ∀ c : Dev nD,
      r.2.mem ((c.tc : Thread nD τ).loc main_v23) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v23 (Pipeline.mem_restRefs_of main_v23 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

/-- Entry (b, n) of the result: the sum over the edges whose row word is n of the edge's value in column b. -/
theorem result_apply (c : Dev nD) (b : Fin 64) (n : Fin 120000) :
    result m c (ix2 b n)
      = ∑ i : Fin 1920000, if (rowsOf m c i).toInt = (n.val : Int) then valsOf m c i b else 0 := by
  have hn : n.val < 120000 := n.isLt
  unfold result
  refine (transpose_apply [1, 0] _ transposes_S120000x64_S64x120000_1_0 (ix2 b n) (ix2 n b) (fun a => match a with
    | ⟨0, _⟩ => rfl
    | ⟨1, _⟩ => rfl)).trans ?_
  refine (extractStridedSlice_apply ![0, 0] (outArr m c) slices_S122880x64_S120000x64_0_0 (ix2 n b)
    (ix2 (⟨n.val, by omega⟩ : Fin 122880) b) (fun a => match a with
    | ⟨0, _⟩ => by show n.val = 0 + n.val; omega
    | ⟨1, _⟩ => by show b.val = 0 + b.val; omega)).trans ?_
  show Cert.Spmm.acc (rowsOf m c) (valsOf m c) n.val b 937 = _
  exact Cert.Spmm.acc_last (rowsOf m c) (valsOf m c) n.val hn b

end Cert.KernelIdeal.Spmm

end
-- ==== Proof.LibScatterAddRows.lean ====
/-
  An accumulating float scatter of N whole rows into a two-axis table of K rows, read at an element, over the
  extended reals.

  `x.at[idx].add(upd)` of a table `x : [K, B]` with one row index per update (`idx : [N, 1]`, `upd : [N, B]`; also what
  `jax.ops.segment_sum` of a two-axis array lowers to) prints as a scatter whose first operand axis is inserted and
  indexed by the start index, and whose second operand axis is the update's one window axis. At the ideal instance
  the result at `(b, c)` is the operand's element plus the sum over the updates `i` whose index word, read as a signed
  integer, is `b`, of the update's element `(i, c)`; an update whose index is negative or at least K lands nowhere.

  The steps, each a lemma of its own. On the first operand axis the start of update element `(i, c')` is the signed
  index word of row `i` (`rowsDims_start0`) and the window coordinate is 0, the axis being inserted
  (`rowsDims_window0`); on the second axis the start is 0, the start index naming the first axis only
  (`rowsDims_start1`), and the window coordinate is `c'` (`rowsDims_window1`). So update element `(i, c')` lands on
  `(b, c)` exactly when the signed word of row `i` equals `b` and `c' = c` (`rowsDims_resultIdx?_eq_some_iff`). The sum
  over the update elements landing on `(b, c)`, written as a double sum over the coordinates (`sum_idx2`), then keeps
  one term of the inner sum, and what is left is a sum over the rows `i` alone.
-/
import Idealize.ShloMosaic.PureOps.Ideal
import Idealize.ShloMosaic.Lib.ValueIdx

noncomputable section

open scoped BigOperators

namespace Idealize.ShloMosaic.ScatterAddRows

open Idealize.ShloMosaic Idealize.ShloMosaic.ValueIdx

/-- The dimension numbers of a scatter of N rows into a table of K rows: operand `[K, B]`, indices `[N, 1]`,
    updates `[N, B]`. -/
abbrev rowsDims (K B N : Nat)
    (wf : ScatterDims.WF ⟨2, ![K, B]⟩ ⟨2, ![N, 1]⟩ ⟨2, ![N, B]⟩ [1] [0] [0] 1) :
    ScatterDims ⟨2, ![K, B]⟩ ⟨2, ![N, 1]⟩ ⟨2, ![N, B]⟩ where
  updateWindowDims := [1]
  insertedWindowDims := [0]
  scatterDimsToOperandDims := [0]
  indexVectorDim := 1
  wf := wf

/-- A property of the two axes holds of every axis once it holds of each. -/
theorem forall_axis2 {P : Fin 2 → Prop} (h0 : P 0) (h1 : P 1) : ∀ a, P a := by
  intro a
  match a with
  | ⟨0, _⟩ => exact h0
  | ⟨1, _⟩ => exact h1

/-- Two two-axis indices with the same two coordinates are equal. -/
theorem idx2_ext {n0 n1 : Nat} {f g : (⟨2, ![n0, n1]⟩ : Shape).Idx}
    (h0 : f 0 = g 0) (h1 : f 1 = g 1) : f = g := by
  rw [eq_ix2 f, eq_ix2 g, h0, h1]

/-- The operand's one axis that is not inserted is the second. -/
theorem rowsDims_sKept {K B N : Nat}
    (wf : ScatterDims.WF ⟨2, ![K, B]⟩ ⟨2, ![N, 1]⟩ ⟨2, ![N, B]⟩ [1] [0] [0] 1) :
    (rowsDims K B N wf).sKept = [1] := rfl

/-- The start of an update element on the first operand axis is the index word of its row, read as a signed integer:
    the start index's only component sits at `[j 0, 0]` of the scatter indices. -/
theorem rowsDims_start0 {K B N w : Nat}
    (wf : ScatterDims.WF ⟨2, ![K, B]⟩ ⟨2, ![N, 1]⟩ ⟨2, ![N, B]⟩ [1] [0] [0] 1)
    (idx : IVec ⟨2, ![N, 1]⟩ w) (j : (⟨2, ![N, B]⟩ : Shape).Idx) :
    (rowsDims K B N wf).start j idx 0 = (idx (ix2 (j 0) (0 : Fin 1))).toInt := by
  unfold ScatterDims.start
  rw [dif_pos (show (0 : Fin 2) ∈ (rowsDims K B N wf).scatterDimsToOperandDims from List.mem_singleton.mpr rfl)]
  have hsi : (rowsDims K B N wf).siIdx j ⟨List.idxOf (0 : Fin 2) (rowsDims K B N wf).scatterDimsToOperandDims,
      List.idxOf_lt_length_iff.2 (List.mem_singleton.mpr rfl)⟩ = ix2 (j 0) (0 : Fin 1) := by
    funext c; refine Fin.ext ?_
    match c with
    | ⟨0, _⟩ => rfl
    | ⟨1, _⟩ => rfl
  rw [hsi]
  rfl

/-- The start index names the first operand axis only, so on the second axis every start is `0`. -/
theorem rowsDims_start1 {K B N w : Nat}
    (wf : ScatterDims.WF ⟨2, ![K, B]⟩ ⟨2, ![N, 1]⟩ ⟨2, ![N, B]⟩ [1] [0] [0] 1)
    (idx : IVec ⟨2, ![N, 1]⟩ w) (j : (⟨2, ![N, B]⟩ : Shape).Idx) :
    (rowsDims K B N wf).start j idx 1 = 0 := by
  unfold ScatterDims.start
  rw [dif_neg (show ¬ (1 : Fin 2) ∈ (rowsDims K B N wf).scatterDimsToOperandDims from
    fun h => absurd (List.mem_singleton.mp h) (by decide : ¬ (1 : Fin 2) = 0))]

/-- The first operand axis is an inserted window axis, so every update element's window coordinate on it is `0`. -/
theorem rowsDims_window0 {K B N : Nat}
    (wf : ScatterDims.WF ⟨2, ![K, B]⟩ ⟨2, ![N, 1]⟩ ⟨2, ![N, B]⟩ [1] [0] [0] 1)
    (j : (⟨2, ![N, B]⟩ : Shape).Idx) : (rowsDims K B N wf).window j 0 = 0 := by
  unfold ScatterDims.window
  rw [dif_neg]
  rw [rowsDims_sKept]
  exact (by decide : ¬ (0 : Fin 2) ∈ [1])

/-- The second operand axis is the one kept axis, so the window coordinate on it is the update element's coordinate
    on its one window axis, the second. -/
theorem rowsDims_window1 {K B N : Nat}
    (wf : ScatterDims.WF ⟨2, ![K, B]⟩ ⟨2, ![N, 1]⟩ ⟨2, ![N, B]⟩ [1] [0] [0] 1)
    (j : (⟨2, ![N, B]⟩ : Shape).Idx) : (rowsDims K B N wf).window j 1 = (j 1).val := by
  unfold ScatterDims.window
  rw [dif_pos (show (1 : Fin 2) ∈ (rowsDims K B N wf).sKept by
    rw [rowsDims_sKept]; exact (by decide : (1 : Fin 2) ∈ [1]))]
  rfl

/-- Update element `(i, c')` lands on `(b, c)` exactly when the index word of row `i`, read as a signed integer,
    is `b`, and `c' = c`: a word that is negative or at least `K` names no row of the operand, and the update
    is dropped. -/
theorem rowsDims_resultIdx?_eq_some_iff {K B N w : Nat}
    (wf : ScatterDims.WF ⟨2, ![K, B]⟩ ⟨2, ![N, 1]⟩ ⟨2, ![N, B]⟩ [1] [0] [0] 1)
    (idx : IVec ⟨2, ![N, 1]⟩ w) (i : Fin N) (c' : Fin B) (b : Fin K) (c : Fin B) :
    (rowsDims K B N wf).resultIdx? (ix2 i c') idx = some (ix2 b c)
      ↔ (idx (ix2 i (0 : Fin 1))).toInt = (b.val : Int) ∧ c' = c := by
  have hb : b.val < K := b.isLt
  have hc' : c'.val < B := c'.isLt
  have p0 : (rowsDims K B N wf).start (ix2 i c') idx 0 + ((rowsDims K B N wf).window (ix2 i c') 0 : Int)
      = (idx (ix2 i (0 : Fin 1))).toInt := by
    rw [rowsDims_start0, rowsDims_window0]; exact Int.add_zero _
  have p1 : (rowsDims K B N wf).start (ix2 i c') idx 1 + ((rowsDims K B N wf).window (ix2 i c') 1 : Int)
      = (c'.val : Int) := by
    rw [rowsDims_start1, rowsDims_window1]; exact Int.zero_add _
  unfold ScatterDims.resultIdx?
  split_ifs with h
  · rw [Option.some.injEq]
    constructor
    · intro e
      have e0 := congrArg (fun f => (f 0).val) e
      have e1 := congrArg (fun f => (f 1).val) e
      change ((rowsDims K B N wf).start (ix2 i c') idx 0
        + ((rowsDims K B N wf).window (ix2 i c') 0 : Int)).toNat = b.val at e0
      change ((rowsDims K B N wf).start (ix2 i c') idx 1
        + ((rowsDims K B N wf).window (ix2 i c') 1 : Int)).toNat = c.val at e1
      have h0 := (h 0).1
      rw [p0] at e0 h0
      rw [p1] at e1
      exact ⟨by omega, Fin.ext (by omega)⟩
    · rintro ⟨e, rfl⟩
      refine idx2_ext (Fin.ext ?_) (Fin.ext ?_)
      · change ((rowsDims K B N wf).start (ix2 i c') idx 0
          + ((rowsDims K B N wf).window (ix2 i c') 0 : Int)).toNat = b.val
        rw [p0]; omega
      · change ((rowsDims K B N wf).start (ix2 i c') idx 1
          + ((rowsDims K B N wf).window (ix2 i c') 1 : Int)).toNat = c'.val
        rw [p1]; omega
  · constructor
    · intro e; exact absurd e (by simp)
    · rintro ⟨e, rfl⟩
      exfalso
      apply h
      refine forall_axis2 ?_ ?_
      · rw [p0]
        change 0 ≤ (idx (ix2 i (0 : Fin 1))).toInt ∧ (idx (ix2 i (0 : Fin 1))).toInt < (K : Int)
        omega
      · rw [p1]
        change 0 ≤ (c'.val : Int) ∧ (c'.val : Int) < (B : Int)
        omega

/-- THE SUM OF ROWS AT `(b, c)`: the operand's element plus the sum, over the updates whose index word is `b`, of the
    update's element `(i, c)`. -/
theorem scatterAdd_rows_apply {K B N w : Nat}
    (wf : ScatterDims.WF ⟨2, ![K, B]⟩ ⟨2, ![N, 1]⟩ ⟨2, ![N, B]⟩ [1] [0] [0] 1)
    (x : (⟨2, ![K, B]⟩ : Shape).Idx → EReal) (idx : IVec ⟨2, ![N, 1]⟩ w)
    (upd : (⟨2, ![N, B]⟩ : Shape).Idx → EReal) (b : Fin K) (c : Fin B) :
    Ideal.hostScatterAdd (rowsDims K B N wf) x idx upd (ix2 b c)
      = x (ix2 b c) + ∑ i : Fin N, if (idx (ix2 i (0 : Fin 1))).toInt = (b.val : Int) then upd (ix2 i c) else 0 := by
  unfold Ideal.hostScatterAdd
  refine congrArg (x (ix2 b c) + ·) ?_
  rw [Finset.sum_filter, sum_idx2]
  refine Finset.sum_congr rfl fun i _ => ?_
  have hc : ∀ c' : Fin B, c' ≠ c →
      (if (rowsDims K B N wf).resultIdx? (ix2 i c') idx = some (ix2 b c)
        then upd (ix2 i c') else 0) = 0 := fun c' hc' =>
    if_neg fun h => hc' ((rowsDims_resultIdx?_eq_some_iff wf idx i c' b c).mp h).2
  rw [Fintype.sum_eq_single c hc]
  exact if_congr ((rowsDims_resultIdx?_eq_some_iff wf idx i c b c).trans
    ⟨fun h => h.1, fun h => ⟨h, rfl⟩⟩) rfl rfl

end Idealize.ShloMosaic.ScatterAddRows

end
-- ==== Proof.RefValue.lean ====
/-
  The reference at the ideal values, read at an entry.

  The reference transposes x, gathers one row of it per edge, scales the row by the edge's value, and adds the
  resulting rows into a table of 120000 rows at the edge's row index (an accumulating scatter: an index that is
  negative or at least 120000 adds nothing), then transposes back. So entry (b, n) of its result is the sum, over
  the edges whose row word read as a signed integer is n, of the edge's scaled gathered value in column b. The
  scaled gathered values are the program's stage `val_main_v14`; nothing here opens them.
-/
import proofs.«406231_j32040456029042_1_alg».proof.Defs
import proofs.«406231_j32040456029042_1_alg».proof.Proof.Gen.ReferenceIdeal.Run
import proofs.«406231_j32040456029042_1_alg».proof.Proof.Gen.ReferenceIdeal.Read
import proofs.«406231_j32040456029042_1_alg».proof.Proof.LibScatterAddRows
import Idealize.ShloMosaic.Lib.ValueIdx
import Idealize.ShloMosaic.Lib.Pipeline.Value
import Idealize.ShloMosaic.PureOps.Ideal.Laws

noncomputable section

open scoped BigOperators

namespace Cert.ReferenceIdeal.Spmm

open Idealize.ShloMosaic Idealize.ShloMosaic.ValueIdx Cert.ReferenceIdeal Cert.ReferenceIdeal.Gen

/-- The transposed index of entry (b, n) is (n, b). -/
theorem idx_v18_ix2 (b : Fin 64) (n : Fin 120000) :
    Cert.ReferenceIdeal.Read.idx_main_v18 (ix2 b n) = ix2 n b := by
  funext a
  match a with
  | ⟨0, _⟩ => rfl
  | ⟨1, _⟩ => rfl

/-- The index word of edge i, as the scatter reads it, is the first row of the edge table at column i: the row is
    sliced out, flattened, and given a trailing unit axis. -/
theorem idx_word_ix2 (i : Fin 1920000) :
    Cert.ReferenceIdeal.Read.idx_main_v0 (Cert.ReferenceIdeal.Read.idx_main_v1
      (Cert.ReferenceIdeal.Read.idx_main_v16 (ix2 i (0 : Fin 1)))) = ix2 (0 : Fin 2) i := by
  funext a
  match a with
  | ⟨0, _⟩ => rfl
  | ⟨1, _⟩ => exact Fin.ext (Nat.mod_eq_of_lt i.isLt)

/-- The scatter's index operand at edge i is the edge's row word. -/
theorem v16_apply_ix2 (x1 : (⟨S2x1920000, .i32⟩ : BufTy).Contents (Elt Ideal)) (i : Fin 1920000) :
    Cert.ReferenceIdeal.Read.val_main_v16 (F := Ideal) x1 (ix2 i (0 : Fin 1)) = x1 (ix2 (0 : Fin 2) i) := by
  rw [Read.val_main_v16_apply, Read.val_main_v1_apply, Read.val_main_v0_apply, idx_word_ix2]

/-- The scatter's operand is the zero table. -/
theorem v15_apply_zero (j : S120000x64.Idx) :
    Cert.ReferenceIdeal.Read.val_main_v15 (F := Ideal) j = 0 := by
  rw [Read.val_main_v15_apply, Read.val_main_cst_apply]
  exact Ideal.ofBits_zero_f32

/-- The scatter stage is the ideal accumulating scatter of whole rows, at the row-scatter dimension numbers. -/
theorem v17_eq (x0 : (⟨S64x120000, .f32⟩ : BufTy).Contents (Elt Ideal)) (x1 : (⟨S2x1920000, .i32⟩ : BufTy).Contents (Elt Ideal))
    (x2 : (⟨S1920000, .f32⟩ : BufTy).Contents (Elt Ideal)) :
    Cert.ReferenceIdeal.Read.val_main_v17 (F := Ideal) x0 x1 x2
      = Ideal.hostScatterAdd (Idealize.ShloMosaic.ScatterAddRows.rowsDims 120000 64 1920000
          Facts₀.scatter_S120000x64_S1920000x1_S1920000x64_1_0_0_1_wf)
        (Cert.ReferenceIdeal.Read.val_main_v15 (F := Ideal)) (Cert.ReferenceIdeal.Read.val_main_v16 (F := Ideal) x1)
        (Cert.ReferenceIdeal.Read.val_main_v14 (F := Ideal) x0 x1 x2) := rfl

/-- Entry (b, n) of the reference's result: the sum over the edges whose row word is n of the edge's value in column b. -/
theorem result_apply (x0 : (⟨S64x120000, .f32⟩ : BufTy).Contents (Elt Ideal)) (x1 : (⟨S2x1920000, .i32⟩ : BufTy).Contents (Elt Ideal))
    (x2 : (⟨S1920000, .f32⟩ : BufTy).Contents (Elt Ideal)) (b : Fin 64) (n : Fin 120000) :
    Cert.ReferenceIdeal.Read.val_main_v18 (F := Ideal) x0 x1 x2 (ix2 b n)
      = ∑ i : Fin 1920000, if (x1 (ix2 (0 : Fin 2) i)).toInt = (n.val : Int)
          then Cert.ReferenceIdeal.Read.val_main_v14 (F := Ideal) x0 x1 x2 (ix2 i b) else 0 := by
  rw [Read.val_main_v18_apply, idx_v18_ix2, v17_eq]
  refine (Idealize.ShloMosaic.ScatterAddRows.scatterAdd_rows_apply _ _ _ _ n b).trans ?_
  rw [v15_apply_zero, zero_add]
  refine Finset.sum_congr rfl fun i _ => ?_
  rw [v16_apply_ix2]

end Cert.ReferenceIdeal.Spmm

end
-- ==== Proof.lean ====
/-
  A sparse matrix times a dense one, written two ways, gives one result over the extended reals.

  Both programs first form, per edge e of a sparse 120000 × 120000 matrix in coordinate form, the edge's value times
  column col(e) of x: 64 numbers per edge. The reference adds each edge's 64 numbers into row row(e) of a zero table
  (an accumulating scatter), and transposes. The kernel pads the edge stream to 938 tiles of 2048 edges (a padding
  edge has the row word 122880 and the value 0), and for each of 30 blocks of 4096 rows multiplies, tile by tile, the
  one-hot matrix [row word k = row r] with the tile's values, accumulating over the tiles; it keeps the first 120000
  rows and transposes. Over the extended reals a one-hot entry times a value is the value or zero, and sums may be
  regrouped freely, so entry (b, n) of either result is the sum, over the edges whose row word read as a signed
  integer is n, of the edge's value in column b. No finiteness of the inputs is used.
-/
import proofs.«406231_j32040456029042_1_alg».proof.Defs
import proofs.«406231_j32040456029042_1_alg».proof.Proof.Gen.Kernel
import proofs.«406231_j32040456029042_1_alg».proof.Proof.Gen.Kernel.Frame
import proofs.«406231_j32040456029042_1_alg».proof.Proof.Gen.KernelIdeal
import proofs.«406231_j32040456029042_1_alg».proof.Proof.Gen.KernelIdeal.Frame
import proofs.«406231_j32040456029042_1_alg».proof.Proof.Gen.ReferenceIdeal
import proofs.«406231_j32040456029042_1_alg».proof.Proof.Gen.ReferenceIdeal.Run
import proofs.«406231_j32040456029042_1_alg».proof.Proof.Gen.ReferenceIdeal.Read
import proofs.«406231_j32040456029042_1_alg».proof.Proof.Gen.Pre_finite_inputs
import proofs.«406231_j32040456029042_1_alg».proof.Proof.Final
import proofs.«406231_j32040456029042_1_alg».proof.Proof.RefValue
import Idealize.ShloMosaic.Adequacy
import Idealize.ShloMosaic.Init

noncomputable section

open scoped BigOperators

namespace Cert.Proof

open Idealize.ShloMosaic Idealize.ShloMosaic.ValueIdx Idealize.SL.Sem

/-- The per-edge values are one function of the three arguments in both programs. -/
theorem edgeVal_eq (x0 : (⟨Cert.KernelIdeal.S64x120000, .f32⟩ : BufTy).Contents (Elt Ideal))
    (x1 : (⟨Cert.KernelIdeal.S2x1920000, .i32⟩ : BufTy).Contents (Elt Ideal))
    (x2 : (⟨Cert.KernelIdeal.S1920000, .f32⟩ : BufTy).Contents (Elt Ideal)) :
    Cert.KernelIdeal.Spmm.edgeVal (F := Ideal) x0 x1 x2 = Cert.ReferenceIdeal.Read.val_main_v14 (F := Ideal) x0 x1 x2 := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Entry by entry the two results are the same sum over the edges of a row. -/
theorem algebraic : Cert.algebraic_KernelIdeal_ReferenceIdeal := by
  intro m ρ m' ρ' _ hagree
  refine ⟨fun c => Cert.KernelIdeal.Spmm.result m c, Cert.KernelIdeal.Spmm.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, (hagree c).1, (hagree c).2.1, (hagree c).2.2]
  funext j
  obtain ⟨b, n, rfl⟩ : ∃ (b : Fin 64) (n : Fin 120000), j = ix2 b n := ⟨j 0, j 1, eq_ix2 j⟩
  refine (Cert.ReferenceIdeal.Spmm.result_apply _ _ _ b n).trans ?_
  refine Eq.trans ?_ (Cert.KernelIdeal.Spmm.result_apply m c b n).symm
  refine Finset.sum_congr rfl fun i _ => ?_
  show (if _ then Cert.ReferenceIdeal.Read.val_main_v14 (F := Ideal) _ _ _ (ix2 i b) else 0)
    = if _ then Cert.KernelIdeal.Spmm.edgeVal (F := Ideal) _ _ _ (ix2 i b) else 0
  rw [edgeVal_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
